-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x392 : Shape := ⟨2, ![16384, 392]⟩
abbrev S_ : Shape := ⟨0, ![]⟩

class Facts : Prop where
  bcast_S_S16384x392 : S_.BroadcastsInDim S16384x392 (![] : Fin 0 → Fin S16384x392.rank)
  reducesTo_S16384x392_S_d0_1 : S16384x392.ReducesTo [0, 1] S_
  h_S_ : 0 < S_.numel

variable [Facts]

def fn {F : FTy → Type} [FloatOps F] (main_arg0 : FVec F S16384x392 .f32) : IVec S_ 1 :=
  let main_v0 : FVec F S16384x392 .f32 := Host.absf main_arg0
  let main_cst : FVec F S_ .f32 := constant S_ .f32 0x7F800000#32
  let main_v1 : FVec F S16384x392 .f32 := broadcastInDim S16384x392 ![] bcast_S_S16384x392 main_cst
  let main_v2 : IVec S16384x392 1 := cmpf .olt main_v0 main_v1
  let main_c : IVec S_ 1 := constantI S_ 1 1#1
  let main_v3 : IVec S_ 1 := (fun x v => Host.reduce IntOp.andi x v reducesTo_S16384x392_S_d0_1 h_S_) main_v2 main_c
  main_v3
-- ==== Kernel.lean ====
abbrev S16384x392 : Shape := ⟨2, ![16384, 392]⟩
abbrev S128x128 : Shape := ⟨2, ![128, 128]⟩
abbrev S4096x392 : Shape := ⟨2, ![4096, 392]⟩
abbrev S32x128 : Shape := ⟨2, ![32, 128]⟩
abbrev S1x392 : Shape := ⟨2, ![1, 392]⟩
abbrev S1x4096 : Shape := ⟨2, ![1, 4096]⟩
abbrev S16384x1 : Shape := ⟨2, ![16384, 1]⟩

abbrev nBuf : Space → Nat
  | .hbm => 3
  | .vmem => 4
  | .smem => 0
  | _ => 0

abbrev bufTy : (tb : Table) → Fin (tcTables nBuf tb) → BufTy
  | .hbm, ⟨0, _⟩ => ⟨S16384x392, .f32⟩
  | .hbm, ⟨1, _⟩ => ⟨S128x128, .f32⟩
  | .hbm, ⟨2, _⟩ => ⟨S16384x1, .f32⟩
  | .local _ .vmem, ⟨0, _⟩ => ⟨S4096x392, .f32⟩
  | .local _ .vmem, ⟨1, _⟩ => ⟨S4096x392, .f32⟩
  | .local _ .vmem, ⟨2, _⟩ => ⟨S32x128, .f32⟩
  | .local _ .vmem, ⟨3, _⟩ => ⟨S32x128, .f32⟩
  | _, _ => ⟨S16384x392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x392 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x392_S4096x392_0_0 : ∀ a, (![0, 0] : Fin 2 → Nat) a + S4096x392.size a ≤ S4096x392.size a
  h_S4096x392 : 0 < S4096x392.numel
  shapeCasts_S1x4096_S32x128 : S1x4096.ShapeCasts S32x128
  inb_S32x128_S32x128_0_0 : ∀ a, (![0, 0] : Fin 2 → Nat) a + S32x128.size a ≤ S32x128.size a
  h_S32x128 : 0 < S32x128.numel
  shapeCasts_S128x128_S16384x1 : S128x128.ShapeCasts S16384x1
  dot_S1x392_S4096x392_S1x4096_1_1_0_0_n_n_wf : DotDims.WF S1x392 S4096x392 S1x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x392.size a ≤ S16384x392.size a
  hwx0_0 : ∀ i : grid0.Coords, EltTy.bits .f32 = 32 ∨ (Rect.block (s := S16384x392) S4096x392.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S128x128.size a
  hwx0_1 : ∀ i : grid0.Coords, EltTy.bits .f32 = 32 ∨ (Rect.block (s := S128x128) S32x128.size (cc0_transform_1 i) (hinb0_1 i)).WholeWords (EltTy.packing .f32)

variable [Facts₀]

def dot_S1x392_S4096x392_S1x4096_1_1_0_0_n_n : DotDims S1x392 S4096x392 S1x4096 where
  lhsContracting := [1]
  rhsContracting := [1]
  lhsNonContracting := [0]
  rhsNonContracting := [0]
  lhsBatch := []
  rhsBatch := []
  wf := dot_S1x392_S4096x392_S1x4096_1_1_0_0_n_n_wf

abbrev win0_0 : Pipeline.Window sig grid0 :=
  Pipeline.Window.ofSpec (Memref.whole main_arg0) S4096x392.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x392 : Shape := ⟨2, ![16384, 392]⟩
abbrev S16384x1 : Shape := ⟨2, ![16384, 1]⟩
abbrev S1336x392 : Shape := ⟨2, ![1336, 392]⟩
abbrev S1336x1 : Shape := ⟨2, ![1336, 1]⟩
abbrev S1336 : Shape := ⟨1, ![1336]⟩

abbrev nBuf : Space → Nat
  | .hbm => 2
  | .vmem => 4
  | .smem => 0
  | _ => 0

abbrev bufTy : (tb : Table) → Fin (tcTables nBuf tb) → BufTy
  | .hbm, ⟨0, _⟩ => ⟨S16384x392, .f32⟩
  | .hbm, ⟨1, _⟩ => ⟨S16384x1, .f32⟩
  | .local _ .vmem, ⟨0, _⟩ => ⟨S1336x392, .f32⟩
  | .local _ .vmem, ⟨1, _⟩ => ⟨S1336x392, .f32⟩
  | .local _ .vmem, ⟨2, _⟩ => ⟨S1336x1, .f32⟩
  | .local _ .vmem, ⟨3, _⟩ => ⟨S1336x1, .f32⟩
  | _, _ => ⟨S16384x392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1336x392 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1336x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1336x392_S1336x392_0_0 : ∀ a, (![0, 0] : Fin 2 → Nat) a + S1336x392.size a ≤ S1336x392.size a
  h_S1336x392 : 0 < S1336x392.numel
  reduces_S1336x392_S1336 : S1336x392.Reduces [1] S1336
  shapeCasts_S1336_S1336x1 : S1336.ShapeCasts S1336x1
  inb_S1336x1_S1336x1_0_0 : ∀ a, (![0, 0] : Fin 2 → Nat) a + S1336x1.size a ≤ S1336x1.size a
  h_S1336x1 : 0 < S1336x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1336x392.size a < S16384x392.size a
  hwx0_0 : ∀ i : grid0.Coords, EltTy.bits .f32 = 32 ∨ (Rect.unit (s := S16384x392) (fun a => cc0_transform_0 i a * S1336x392.size a) (fun a => (Pipeline.Clip.of (cc0_transform_0 i a) (S1336x392.size a) (S16384x392.size a)).extent (S1336x392.size a)) fun a => Pipeline.Clip.inb (Pipeline.Clip.ok_of (hstart0_0 i a))).WholeWords (EltTy.packing .f32)
  hwxs0_0 : ∀ i : grid0.Coords, EltTy.bits .f32 = 32 ∨ (Rect.unit (s := S1336x392) (fun _ => 0) (fun a => (Pipeline.Clip.of (cc0_transform_0 i a) (S1336x392.size a) (S16384x392.size a)).extent (S1336x392.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1336x1.size a < S16384x1.size a
  hwx0_1 : ∀ i : grid0.Coords, EltTy.bits .f32 = 32 ∨ (Rect.unit (s := S16384x1) (fun a => cc0_transform_1 i a * S1336x1.size a) (fun a => (Pipeline.Clip.of (cc0_transform_1 i a) (S1336x1.size a) (S16384x1.size a)).extent (S1336x1.size a)) fun a => Pipeline.Clip.inb (Pipeline.Clip.ok_of (hstart0_1 i a))).WholeWords (EltTy.packing .f32)
  hwxs0_1 : ∀ i : grid0.Coords, EltTy.bits .f32 = 32 ∨ (Rect.unit (s := S1336x1) (fun _ => 0) (fun a => (Pipeline.Clip.of (cc0_transform_1 i a) (S1336x1.size a) (S16384x1.size a)).extent (S1336x1.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_arg0) S1336x392.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S1336x1.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.Spec.lean ====
/-
  The specification both programs are read against: the mean of each row of a 16384 × 392 array, taken as the
  row's sum times ONE fixed scale (the single-precision word nearest 1/392, the same word in both programs, so it
  is never evaluated). Over the extended reals the sum of a row is a sum in a commutative monoid: no order of
  summation, no tiling and no grouping changes it.
-/
import Idealize.ShloMosaic.PureOps.Ideal
import Idealize.ShloMosaic.PureOps.Ideal.Laws
import Idealize.ShloMosaic.Lib.ValueIdx

noncomputable section

namespace Cert.RowMean

open Idealize.ShloMosaic Idealize.ShloMosaic.ValueIdx

/-- The input's shape: 16384 rows of 392 entries. -/
abbrev SX : Shape := ⟨2, ![16384, 392]⟩
/-- The result's shape: one entry per row. -/
abbrev SY : Shape := ⟨2, ![16384, 1]⟩

/-- The scale both programs multiply a row's sum by: the value of the word `0x3B272F05`. -/
def scale : EReal := Ideal.ofBits .f32 0x3B272F05#32

/-- Row `r` of the result is the sum of row `r` of the input, times the scale. -/
def rowMean (x : SX.Idx → EReal) : SY.Idx → EReal := fun i => (∑ k : Fin 392, x (ix2 (i 0) k)) * scale

theorem rowMean_apply (x : SX.Idx → EReal) (r : Fin 16384) (z : Fin 1) :
    rowMean x (ix2 r z) = (∑ k : Fin 392, x (ix2 r k)) * scale := rfl

/-- The word `0x3F800000` is the number one. -/
theorem ofBits_one : Ideal.ofBits .f32 0x3F800000#32 = 1 := by
  simp [Ideal.ofBits, Ideal.ieee, -EReal.coe_mul]; norm_num

end Cert.RowMean

end
-- ==== Proof.KernelPayload.lean ====
/-
  What the kernel's body stores, entry by entry. The body multiplies a 1 × 392 row of ones into the transpose of
  its 4096 × 392 block: entry (0, a) of the product is the sum over k of 1 · block[a, k], the sum of row a of the
  block. The 1 × 4096 row of sums is then laid out as 32 × 128 in row-major order — entry (p, q) is the sum of
  block row 128 p + q — and every entry is multiplied by the scale.
-/
import proofs.«102092_g2000405515844357_pallasbulk_212_9_alg».proof.Proof.Gen.KernelIdeal.Skeleton
import proofs.«102092_g2000405515844357_pallasbulk_212_9_alg».proof.Proof.Gen.KernelIdeal
import proofs.«102092_g2000405515844357_pallasbulk_212_9_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RowValue

open Cert.KernelIdeal Cert.KernelIdeal.Gen Cert.RowMean
open Idealize.ShloMosaic Idealize.ShloMosaic.TcCoe Idealize.ShloMosaic.ValueIdx

/-- The right operand's index at result entry `j` and contraction position `k`: its row is the result's column, -/
theorem rhs_row (j : S1x4096.Idx) (k : dot_S1x392_S4096x392_S1x4096_1_1_0_0_n_n.contr.Idx) :
    (dot_S1x392_S4096x392_S1x4096_1_1_0_0_n_n.rhsIdx j k 0 : ℕ) = j 1 := by
  simp [DotDims.rhsIdx, dot_S1x392_S4096x392_S1x4096_1_1_0_0_n_n]; rfl

/-- and its column is the contraction position. -/
theorem rhs_col (j : S1x4096.Idx) (k : dot_S1x392_S4096x392_S1x4096_1_1_0_0_n_n.contr.Idx) :
    (dot_S1x392_S4096x392_S1x4096_1_1_0_0_n_n.rhsIdx j k 1 : ℕ) = k ⟨0, by decide⟩ := by
  simp [DotDims.rhsIdx, dot_S1x392_S4096x392_S1x4096_1_1_0_0_n_n]; rfl

/-- The product of the row of ones with the block's transpose, at column `a`: the sum of block row `a`. -/
theorem ones_matmul_apply (x0 : FVec Ideal S4096x392 .f32) (a : Fin 4096) :
    matmul (F := Ideal) dot_S1x392_S4096x392_S1x4096_1_1_0_0_n_n none
        (broadcast S1x392 (Scalar.ofBits .f32 0x3F800000#32)) x0 (constant S1x4096 .f32 0x00000000#32) (ix2 0 a)
      = ∑ k : Fin 392, x0 (ix2 a k) := by
  refine (Ideal.matmul_constant_zero_apply _ _ _ _ _).trans ?_
  rw [← Equiv.sum_comp (contrEquiv1 dot_S1x392_S4096x392_S1x4096_1_1_0_0_n_n 392 rfl rfl).symm]
  refine Finset.sum_congr rfl fun k _ => ?_
  rw [broadcast_apply]
  show Ideal.ofBits .f32 0x3F800000#32 * _ = _
  rw [ofBits_one, one_mul]
  refine congrArg x0 ?_
  funext ax
  apply Fin.ext
  match ax with
  | ⟨0, _⟩ => exact rhs_row _ _
  | ⟨1, _⟩ =>
    refine (rhs_col _ _).trans ?_
    exact contrEquiv1_symm_val dot_S1x392_S4096x392_S1x4096_1_1_0_0_n_n 392 rfl rfl k

/-- The stored value at entry (p, q) of the 32 × 128 block: the sum of block row 128 p + q, times the scale. -/
theorem pay_apply (x0 : Vec Ideal S4096x392 .f32) (p : Fin 32) (q : Fin 128) :
    k0_pay1 (F := Ideal) x0 (ix2 p q)
      = (∑ k : Fin 392, x0 (ix2 (⟨128 * p.val + q.val, by have := p.isLt; have := q.isLt; omega⟩ : Fin 4096) k)) * scale := by
  unfold k0_pay1
  show shapeCast S32x128 _ _ (ix2 p q) * Ideal.ofBits .f32 0x3B272F05#32 = _
  rw [shapeCast_apply _ _ (ix2 p q) (ix2 (0 : Fin 1) (⟨128 * p.val + q.val, by have := p.isLt; have := q.isLt; omega⟩ : Fin 4096))
    (by rw [Shape.rowMajor_val_two, Shape.rowMajor_val_two]; show 0 * 4096 + (128 * p.val + q.val) = p.val * 128 + q.val; omega)]
  rw [ones_matmul_apply]
  rfl

end Cert.KernelIdeal.RowValue

end
-- ==== Proof.KernelArray.lean ====
/-
  The kernel's result array. Grid point t stages rows 4096 t … 4096 t + 4095 of the input and writes the 32 × 128
  block of their scaled sums onto rows 32 t … 32 t + 31 of a dense 128 × 128 array, so that after the four points
  dense entry (R, q) is the scaled sum of input row 128 R + q. The host then lays the dense array out as
  16384 × 1 in row-major order: entry (r, 0) is dense entry (r / 128, r % 128), the scaled sum of input row r.
-/
import proofs.«102092_g2000405515844357_pallasbulk_212_9_alg».proof.Proof.Gen.KernelIdeal.Frame
import proofs.«102092_g2000405515844357_pallasbulk_212_9_alg».proof.Proof.KernelPayload
import Idealize.ShloMosaic.Lib.StableHlo.Run

set_option maxRecDepth 16384

noncomputable section

namespace Cert.KernelIdeal.RowValue

open Cert.KernelIdeal Cert.KernelIdeal.Gen Cert.RowMean
open Idealize.ShloMosaic Idealize.ShloMosaic.TcCoe Idealize.ShloMosaic.ValueIdx Idealize.SL.Sem

variable (m : (ℓ : Loc nD τ sig) → Buf (Elt Ideal) ℓ) (ρ : Dev nD → PrngReg)

/-- The dense array of scaled row sums: entry (R, q) belongs to input row 128 R + q. -/
def dense (x : S16384x392.Idx → EReal) : S128x128.Idx → EReal := fun i =>
  (∑ k : Fin 392, x (ix2 (⟨128 * (i 0).val + (i 1).val, by have h0 : (i 0).val < 128 := (i 0).isLt; have h1 : (i 1).val < 128 := (i 1).isLt; omega⟩ : Fin 16384) k)) * scale

theorem offsets_zero : (![0, 0] : Fin 2 → Nat) = fun _ => 0 := funext fun a => by fin_cases a <;> rfl

/-- The two windows' block indices at point t: both move down one block per point and never sideways. -/
theorem block_indices : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The stored block over a block of the input that is rows 4096 tv … of an array X: entry (p, q) is the scaled
    sum of row 4096 tv + 128 p + q of X. -/
theorem pay_of_rows (x0 : Vec Ideal S4096x392 .f32) (X : S16384x392.Idx → EReal) (tv : Nat) (htv : tv < 4)
    (hx : ∀ (a : Fin 4096) (k : Fin 392), x0 (ix2 a k) = X (ix2 (⟨4096 * tv + a.val, by have := a.isLt; omega⟩ : Fin 16384) k))
    (p : Fin 32) (q : Fin 128) :
    k0_pay1 (F := Ideal) x0 (ix2 p q)
      = (∑ k : Fin 392, X (ix2 (⟨4096 * tv + 128 * p.val + q.val, by have := p.isLt; have := q.isLt; omega⟩ : Fin 16384) k)) * scale := by
  rw [pay_apply]
  refine congrArg (· * scale) (Finset.sum_congr rfl fun k _ => ?_)
  rw [hx]
  refine congrArg X ?_
  funext ax
  apply Fin.ext
  match ax with
  | ⟨0, _⟩ => show 4096 * tv + (128 * p.val + q.val) = 4096 * tv + 128 * p.val + q.val; omega
  | ⟨1, _⟩ => rfl

/-- What point t writes back is block t of the dense array of the input as the region finds it. -/
theorem flushed_eq (c : Dev nD) (t : Fin cfg0.N) :
    (dats m 0 c).flushed 1 t = ((cfg0.win 1).blk t).view.read (Elt Ideal) (dense (V m c main_arg0)) := by
  show (cfg0.win 1).cut (grid0.coords t) ((dats m 0 c).after 1 t) = _
  rw [after0_1]
  unfold out0_1
  rw [View.canon_unit_zero offsets_zero]
  simp only [View.ld_unit_zero (S := S4096x392) offsets_zero]
  obtain ⟨e0, e1, e2, e3⟩ := block_indices t
  have ht : t.val < 4 := t.isLt
  funext j
  show k0_pay1 (F := Ideal) (iblk m c 0 t) (ix2 (j 0) (j 1)) = dense (V m c main_arg0) (((cfg0.win 1).blk t).view.emb j)
  refine (pay_of_rows (iblk m c 0 t) (V m c main_arg0) t.val ht (fun a k => ?_) (j 0) (j 1)).trans ?_
  · show V m c main_arg0 (((cfg0.win 0).blk t).view.emb (ix2 a k)) = _
    refine congrArg (V m c main_arg0) ?_
    funext ax
    apply Fin.ext
    match ax with
    | ⟨0, _⟩ => show win0_0.index t (0 : Fin 2) * 4096 + 1 * a.val = 4096 * t.val + a.val; omega
    | ⟨1, _⟩ => show win0_0.index t (1 : Fin 2) * 392 + 1 * k.val = k.val; omega
  · unfold dense
    refine congrArg (· * scale) (Finset.sum_congr rfl fun k _ => ?_)
    refine congrArg (V m c main_arg0) ?_
    funext ax
    apply Fin.ext
    match ax with
    | ⟨0, _⟩ =>
      show 4096 * t.val + 128 * (j 0).val + (j 1).val
        = 128 * (win0_1.index t (0 : Fin 2) * 32 + 1 * (j 0).val) + (win0_1.index t (1 : Fin 2) * 128 + 1 * (j 1).val)
      omega
    | ⟨1, _⟩ => rfl

/-- An entry of the dense array is in point t's block iff each coordinate is in the block's range. -/
theorem mem_blk (t : Fin cfg0.N) (i : S128x128.Idx) :
    i ∈ ((cfg0.win 1).blk t).view.set ↔ ∀ a : Fin 2, win0_1.index t a * S32x128.size a ≤ (i a).val ∧ (i a).val < win0_1.index t a * S32x128.size a + S32x128.size a := by
  show i ∈ ((View.whole main_v0).slice (win0_1.rect t)).set ↔ _
  rw [View.set_slice_whole, Rect.mem_set_unit]
  exact Iff.rfl

/-- Every entry of the dense array is in some point's block: row R is in block R / 32. -/
theorem cover (i : S128x128.Idx) : ∃ t : Fin cfg0.N, (cfg0.win 1).flush t = true ∧ i ∈ ((cfg0.win 1).blk t).view.set := by
  have h0 : (i 0).val < 128 := (i 0).isLt
  have h1 : (i 1).val < 128 := (i 1).isLt
  refine ⟨⟨(i 0).val / 32, by show (i 0).val / 32 < 4; omega⟩, flush0_1 _, ?_⟩
  rw [mem_blk]
  obtain ⟨-, -, e2, e3⟩ := block_indices ⟨(i 0).val / 32, by show (i 0).val / 32 < 4; omega⟩
  intro a
  match a with
  | ⟨0, _⟩ =>
    show win0_1.index _ (0 : Fin 2) * 32 ≤ (i 0).val ∧ (i 0).val < win0_1.index _ (0 : Fin 2) * 32 + 32
    rw [e2]; show (i 0).val / 32 * 32 ≤ (i 0).val ∧ (i 0).val < (i 0).val / 32 * 32 + 32; omega
  | ⟨1, _⟩ =>
    show win0_1.index _ (1 : Fin 2) * 128 ≤ (i 1).val ∧ (i 1).val < win0_1.index _ (1 : Fin 2) * 128 + 128
    rw [e3]; omega

/-- The dense array after the run. -/
theorem final_dense (c : Dev nD) : (dats m 0 c).arrAt 1 cfg0.N = dense (m ((c : Thread nD τ).loc main_arg0)) :=
  (dats m 0 c).arrAt_eq_of_cover 1 (dense (V m c main_arg0)) (fun t _ => flushed_eq m c t) cover

/-- The dense array laid out as 16384 × 1 is the specification's row means. -/
theorem reshape_dense (x : S16384x392.Idx → EReal) :
    shapeCast S16384x1 (dense x) shapeCasts_S128x128_S16384x1 = rowMean x := by
  funext i
  have h0 : (i 0).val < 16384 := (i 0).isLt
  have h1 : (i 1).val < 1 := (i 1).isLt
  rw [shapeCast_apply (dense x) _ i (ix2 (⟨(i 0).val / 128, by omega⟩ : Fin 128) (⟨(i 0).val % 128, by omega⟩ : Fin 128))
    (by rw [Shape.rowMajor_val_two, Shape.rowMajor_val_two]
        show (i 0).val / 128 * 128 + (i 0).val % 128 = (i 0).val * 1 + (i 1).val; omega)]
  unfold dense rowMean
  refine congrArg (· * scale) (Finset.sum_congr rfl fun k _ => ?_)
  refine congrArg x ?_
  funext ax
  apply Fin.ext
  match ax with
  | ⟨0, _⟩ => show 128 * ((i 0).val / 128) + (i 0).val % 128 = (i 0).val; omega
  | ⟨1, _⟩ => rfl

/-- The result buffer after the host's reshape of the dense array. -/
theorem tail_result (c : Dev nD) :
    Pipeline.afterTail₀ cfgs (dats m) 0 (V0 m) [hostOps1] c main_v1 = rowMean (m ((c : Thread nD τ).loc main_arg0)) := by
  unfold Pipeline.afterTail₀
  show StableHlo.after hostOps1 _ (Proc.devRef .tc main_v1) = _
  after_results
  rw [show Pipeline.withArrays (cfgs 0).spec c (V0 m c) (fun w => (dats m 0 c).arrAt w (cfgs 0).N) (Proc.devRef .tc main_v0)
      = dense (m ((c : Thread nD τ).loc main_arg0)) from
    (Pipeline.withArrays_arr spec0 launch0.win.arr_inj c _ _ 1).trans (final_dense m c)]
  exact reshape_dense _

/-- Every weakly fair execution of the idealized kernel terminates with the result at the row means of the
    input and the input unchanged. -/
theorem run : θ_run defs (onTc (τ := τ) (main (F := Ideal))) ⟨m, fun _ => 0, ρ⟩ fun r => ∀ c : Dev nD,
      r.2.mem ((c.tc : Thread nD τ).loc main_v1) = rowMean (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (fun w => by fin_cases w <;> decide))).trans (tail_result m c),
       ((h c).1 0).trans (((dats m 0 c).arrAt_in 0 rfl _).trans ((A_eq m c 0).trans (V_main_arg0 m c)))⟩)
    (run_main m ρ)

end Cert.KernelIdeal.RowValue

end
-- ==== Proof.RefPayload.lean ====
/-
  What the reference's body stores, and that it runs. The body sums each row of its 1336 × 392 staging block
  along the row, lays the 1336 sums out as a 1336 × 1 column and multiplies every entry by the scale: entry
  (y, 0) of what it stores is the sum of row y of the block, times the scale — a function of row y alone.
  The body itself is two whole loads and one whole store.
-/
import proofs.«102092_g2000405515844357_pallasbulk_212_9_alg».proof.Proof.Gen.ReferenceIdeal.Frame
import proofs.«102092_g2000405515844357_pallasbulk_212_9_alg».proof.Proof.Gen.ReferenceIdeal.Skeleton
import proofs.«102092_g2000405515844357_pallasbulk_212_9_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.ReferenceIdeal.RowValue

open Cert.ReferenceIdeal Cert.ReferenceIdeal.Gen Cert.RowMean
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The stored value, entry by entry -/

/-- Entry (y, z) of what the body stores: the sum of row y of the block, times the scale. -/
theorem pay_apply (x0 : Vec Ideal S1336x392 .f32) (y : Fin 1336) (z : Fin 1) :
    k0_pay1 (F := Ideal) x0 (ix2 y z) = (∑ k : Fin 392, x0 (ix2 y k)) * scale := by
  unfold k0_pay1
  show shapeCast S1336x1 _ _ (ix2 y z) * Ideal.ofBits .f32 0x3B272F05#32 = _
  rw [shapeCast_apply _ _ (ix2 y z) (ix1 y)
    (by rw [Shape.rowMajor_val_one, Shape.rowMajor_val_two]; show y.val = y.val * 1 + z.val; have := z.isLt; omega)]
  exact congrArg (· * Ideal.ofBits .f32 0x3B272F05#32)
    ((Ideal.multiReduction_add_single _ _ reduces_S1336x392_S1336 _ _ (ix1 y)).trans
      (Finset.sum_congr rfl fun k _ => congrArg x0 (funext fun a => Fin.ext (by
        match a with
        | ⟨0, _⟩ => rfl
        | ⟨1, _⟩ => rfl))))

/-- The same at any index of the column. -/
theorem pay_apply_idx (x0 : Vec Ideal S1336x392 .f32) (y : S1336x1.Idx) :
    k0_pay1 (F := Ideal) x0 y = (∑ k : Fin 392, x0 (ix2 (y 0) k)) * scale := by
  obtain ⟨p, q, rfl⟩ : ∃ (p : Fin 1336) (q : Fin 1), y = ix2 p q := ⟨y 0, y 1, eq_ix2 y⟩
  exact pay_apply x0 p q

/-! ## The body's triple -/

section Body

variable {F : FTy → Type} [FloatOps F]

local notation "𝕄" => MT nD τ sig Unit (Elt F) ℕ (UR sig nD τ) ℕ

abbrev rIn : Rect S1336x392 := Rect.unit (s := S1336x392) ![0, 0] S1336x392.size inb_S1336x392_S1336x392_0_0
abbrev rOut : Rect S1336x1 := Rect.unit (s := S1336x1) ![0, 0] S1336x1.size inb_S1336x1_S1336x1_0_0

theorem offsets_zero : (![0, 0] : Fin 2 → Nat) = fun _ => 0 := funext fun a => by fin_cases a <;> rfl

/-- The result's staging buffer after the body, as its one whole store over the whole load of the input's. -/
def stored (x0 : Vec F S1336x392 .f32) : Vec F S1336x1 .f32 :=
  View.canon [⟨rOut, k0_pay1 (View.ld x0 rIn)⟩]

/-- The one store covers the buffer. -/
theorem stored_cover (p0 : Vec F S1336x1 .f32) (y : S1336x1.Idx) :
    ∃ pc ∈ ([⟨rOut, p0⟩] : List (View.Piece (Elt F) S1336x1 .f32)), y ∈ pc.1.set :=
  View.cover_of_tiled [⟨rOut, p0⟩] S1336x1.size (by rfl) y

/-- Both accesses are of whole buffers: what is stored is the payload of the input buffer's contents. -/
theorem stored_eq (x0 : Vec F S1336x392 .f32) : stored x0 = k0_pay1 x0 := by
  unfold stored
  rw [View.canon_unit_zero offsets_zero]
  simp only [View.ld_unit_zero (S := S1336x392) offsets_zero]

set_option maxHeartbeats 1000000 in
/-- The body on whole staging memrefs, the input's at contents `x0` and the result's at anything, runs to the
    continuation with the input's unchanged and the result's at `stored x0`. -/
theorem sound_kernel (c : Dev nD) (E : Set ℕ) (i : grid0.Coords) (arg1 : Memref sig .tc .vmem S1336x392 .f32) (harg1 : arg1.IsWhole)
    (arg2 : Memref sig .tc .vmem S1336x1 .f32) (harg2 : arg2.IsWhole) (x0 : Vec F S1336x392 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (stored x0)) -∗ K ⟨⟩))
      ⊢ wp frame (wpE (defs₀ (F := F)) Variants.none c none) E (cc0__avgpool_singlepass_kernel i arg1 harg1 arg2 harg2) K := by
  simp only [cc0__avgpool_singlepass_kernel_eq_skeleton]; unfold cc0__avgpool_singlepass_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored_cover _)

end Body

end Cert.ReferenceIdeal.RowValue

end
-- ==== Proof.RefRun.lean ====
/-
  The reference's run. Grid point t stages rows 1336 t … of the input — 1336 rows, except the thirteenth point,
  whose block overhangs the array: only its first 352 rows are the array's rows 16032 … 16383, the rest of the
  staging buffer holds words nothing names — and writes back the column of scaled row sums onto the same rows of
  the result, cut the same way. What the body computes from the unnamed rows is never written back, and an entry
  of the column depends on its own row alone, so on the rows inside the array the column is the specification's,
  whatever fills the rest. The thirteen cut blocks cover the 16384 rows.
-/
import proofs.«102092_g2000405515844357_pallasbulk_212_9_alg».proof.Proof.RefPayload
import Idealize.ShloMosaic.Lib.Pipeline.Frame

set_option maxRecDepth 16384

noncomputable section

namespace Cert.ReferenceIdeal.RowValue

open Cert.ReferenceIdeal Cert.ReferenceIdeal.Gen Cert.RowMean
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The windows at a point -/

/-- Both windows' block index at point t is (t, 0); both are cut to 352 rows at the thirteenth point and whole
    elsewhere; neither is cut along a row. -/
theorem window_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_0.xsize (grid0.coords t) (0 : Fin 2) = (if t.val = 12 then 352 else 1336)
    ∧ win0_0.xsize (grid0.coords t) (1 : Fin 2) = 392
    ∧ win0_1.xsize (grid0.coords t) (0 : Fin 2) = (if t.val = 12 then 352 else 1336)
    ∧ win0_1.xsize (grid0.coords t) (1 : Fin 2) = 1 :=
  (by decide +kernel : ∀ t : Fin grid0.N, _)

/-- A row of the input's staging buffer that the fetch moved holds the array's row under it, whatever filled
    the buffer before. -/
theorem fill_row (c : Dev nD) (t : Fin cfg0.N) (d : S1336x392.Idx → EReal) (y : Fin 1336) (k : Fin 392)
    (hy : y.val < win0_0.xsize (grid0.coords t) (0 : Fin 2)) (r : Fin 16384) (hr : r.val = 1336 * t.val + y.val) :
    win0_0.fill (grid0.coords t) d (iblk m c 0 t) (ix2 y k) = V m c main_arg0 (ix2 r k) := by
  obtain ⟨e0, e1, -, -, -, e5, -, -⟩ := window_facts t
  have hmv : win0_0.moved (grid0.coords t) (ix2 y k) = true := (win0_0.moved_iff _ _).mpr fun a => by
    match a with
    | ⟨0, _⟩ => exact hy
    | ⟨1, _⟩ => show k.val < win0_0.xsize (grid0.coords t) (1 : Fin 2); rw [e5]; exact k.isLt
  unfold Window.fill
  rw [dif_pos hmv]
  show V m c main_arg0 (((cfg0.win 0).blk t).view.emb _) = _
  refine congrArg (V m c main_arg0) ?_
  funext ax
  apply Fin.ext
  match ax with
  | ⟨0, _⟩ => show win0_0.index t (0 : Fin 2) * 1336 + 1 * y.val = r.val; omega
  | ⟨1, _⟩ => show win0_0.index t (1 : Fin 2) * 392 + 1 * k.val = k.val; omega

/-- What the write-back at point t takes of the stored column — its rows inside the array — is block t of the
    specification's result, whatever filled the input's staging buffer past the array's end. -/
theorem cut_stored (c : Dev nD) (t : Fin cfg0.N) (d : S1336x392.Idx → EReal) :
    win0_1.cut (grid0.coords t) (k0_pay1 (F := Ideal) (win0_0.fill (grid0.coords t) d (iblk m c 0 t)))
      = ((cfg0.win 1).blk t).view.read (Elt Ideal) (rowMean (V m c main_arg0)) := by
  obtain ⟨e0, e1, e2, e3, e4, e5, e6, e7⟩ := window_facts t
  funext j
  have hj0 : (j 0).val < win0_1.xsize (grid0.coords t) (0 : Fin 2) := (j 0).isLt
  show k0_pay1 (F := Ideal) (win0_0.fill (grid0.coords t) d (iblk m c 0 t)) (win0_1.xinj (grid0.coords t) j)
    = rowMean (V m c main_arg0) (((cfg0.win 1).blk t).view.emb j)
  refine (pay_apply_idx _ _).trans ?_
  unfold rowMean
  refine congrArg (· * scale) (Finset.sum_congr rfl fun k _ => ?_)
  refine fill_row m c t d _ k ?_ _ ?_
  · show (j 0).val < win0_0.xsize (grid0.coords t) (0 : Fin 2)
    rw [e4, ← e6]; exact hj0
  · show win0_1.index t (0 : Fin 2) * 1336 + 1 * (j 0).val = 1336 * t.val + (j 0).val
    omega

/-! ## The proof data -/

/-- The input's staging buffer after the body at point t, on the rows the fetch moved: its block; the filler past
    the array's end is zero, which nothing reads. -/
def xfull (c : Dev nD) (t : Fin cfg0.N) : Vec Ideal S1336x392 .f32 :=
  win0_0.fill (grid0.coords t) (fun _ => (0 : EReal)) (iblk m c 0 t)

/-- The proof data of the one pipeline on core c: the arrays as the region finds them; after the body the input's
    staging buffer at its block and the result's at the stored column of it; the class's invariant; nothing owed;
    full shares. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => k0_pay1 (F := Ideal) (xfull m c t)
  Φ _ := Pipeline.ΦA spec0 c
  q _ := fullShare
  owed _ := 0

theorem after_0 (c : Dev nD) (t : Fin cfg0.N) : (dats m 0 c).after 0 t = xfull m c t := by dsimp only [dats]
theorem after_1 (c : Dev nD) (t : Fin cfg0.N) : (dats m 0 c).after 1 t = k0_pay1 (F := Ideal) (xfull m c t) := by dsimp only [dats]

/-- The body finds the input's buffer just fetched: the block on the rows inside the array, anything elsewhere; -/
theorem before_0 (c : Dev nD) (t : Fin cfg0.N) (d) :
    (dats m 0 c).before 0 t d = win0_0.fill (grid0.coords t) d (iblk m c 0 t) := by
  unfold Dat.before; rw [if_pos (fetch0_0 t)]; rfl

/-- and the result's buffer at contents nothing names (every point writes it back). -/
theorem before_1 (c : Dev nD) (t : Fin cfg0.N) (d) : (dats m 0 c).before 1 t d = d :=
  (dats m 0 c).before_out_reset 1 rfl t
    (by by_cases h : t.val = 0
        · exact .inl h
        · exact .inr ⟨h, flush0_1 _⟩) d

/-- On the rows the fetch moved, the input's buffer is handed back as it was found, whatever filled the rest. -/
theorem leaves_0 (c : Dev nD) (t : Fin cfg0.N) (d0 : S1336x392.Idx → EReal) :
    win0_0.fill (grid0.coords t) d0 (win0_0.cut (grid0.coords t) ((dats m 0 c).after 0 t))
      = win0_0.fill (grid0.coords t) d0 (iblk m c 0 t) := by
  rw [after_0]; unfold xfull; rw [win0_0.cut_fill]

/-- On the rows the write-back takes, the column stored over a buffer filled with anything is the column stored
    over the buffer filled with zero: both are block t of the specification's result. -/
theorem leaves_1 (c : Dev nD) (t : Fin cfg0.N) (d0 : S1336x392.Idx → EReal) :
    win0_1.fill (grid0.coords t) (stored (F := Ideal) (win0_0.fill (grid0.coords t) d0 (iblk m c 0 t)))
        (win0_1.cut (grid0.coords t) ((dats m 0 c).after 1 t))
      = stored (F := Ideal) (win0_0.fill (grid0.coords t) d0 (iblk m c 0 t)) := by
  rw [after_1, stored_eq]
  exact win0_1.fill_congr_cut _ ((cut_stored m c t d0).trans (cut_stored m c t _).symm)

/-! ## The body obligation -/

/-- At every point the body runs from the buffers as the pipeline hands them over to the buffers as the proof
    data says, each stated on the rows inside the array only (both windows are cut at the last point). -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0, before_1 m c t d1]
  iapply (sound_kernel (F := Ideal) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [leaves_0 m c t d0]; try iexact H0
  · iexists stored (F := Ideal) (win0_0.fill (grid0.coords t) d0 (iblk m c 0 t))
    change _ ⊢ owns (c : Thread nD τ) (stage0_1 (cfg0.slots t 1)) fullShare
      (win0_1.fill (grid0.coords t) (stored (F := Ideal) (win0_0.fill (grid0.coords t) d0 (iblk m c 0 t)))
        (win0_1.cut (grid0.coords t) ((dats m 0 c).after 1 t)))
    rw [leaves_1 m c t d0]; try iexact H1

/-! ## The run -/

set_option backward.isDefEq.respectTransparency.types false in
/-- Every weakly fair execution of the reference terminates, each of the pipeline's arrays at what the library
    computes from the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

/-! ## The result array -/

/-- What point t writes back is block t of the specification's result. -/
theorem flushed_eq (c : Dev nD) (t : Fin cfg0.N) :
    (dats m 0 c).flushed 1 t = ((cfg0.win 1).blk t).view.read (Elt Ideal) (rowMean (V m c main_arg0)) := by
  show (cfg0.win 1).cut (grid0.coords t) ((dats m 0 c).after 1 t) = _
  rw [after_1]
  exact cut_stored m c t _

/-- An entry of the result is in point t's block iff each coordinate is in the cut block's range. -/
theorem mem_blk (t : Fin cfg0.N) (i : S16384x1.Idx) :
    i ∈ ((cfg0.win 1).blk t).view.set ↔ ∀ a : Fin 2, win0_1.index t a * S1336x1.size a ≤ (i a).val
      ∧ (i a).val < win0_1.index t a * S1336x1.size a + win0_1.xsize (grid0.coords t) a := by
  show i ∈ ((View.whole main_v0).slice (win0_1.rect t)).set ↔ _
  rw [View.set_slice_whole, Rect.mem_set_unit]
  exact Iff.rfl

/-- Row r of the result is in block r / 1336: the thirteen cut blocks cover the 16384 rows. -/
theorem cover (i : S16384x1.Idx) : ∃ t : Fin cfg0.N, (cfg0.win 1).flush t = true ∧ i ∈ ((cfg0.win 1).blk t).view.set := by
  have h0 : (i 0).val < 16384 := (i 0).isLt
  have h1 : (i 1).val < 1 := (i 1).isLt
  refine ⟨⟨(i 0).val / 1336, by show (i 0).val / 1336 < 13; omega⟩, flush0_1 _, ?_⟩
  rw [mem_blk]
  obtain ⟨-, -, e2, e3, -, -, e6, e7⟩ := window_facts ⟨(i 0).val / 1336, by show (i 0).val / 1336 < 13; omega⟩
  intro a
  match a with
  | ⟨0, _⟩ =>
    show win0_1.index _ (0 : Fin 2) * 1336 ≤ (i 0).val ∧ (i 0).val < win0_1.index _ (0 : Fin 2) * 1336 + win0_1.xsize _ (0 : Fin 2)
    rw [e2, e6]
    show (i 0).val / 1336 * 1336 ≤ (i 0).val ∧ (i 0).val < (i 0).val / 1336 * 1336 + (if (i 0).val / 1336 = 12 then 352 else 1336)
    split <;> omega
  | ⟨1, _⟩ =>
    show win0_1.index _ (1 : Fin 2) * 1 ≤ (i 1).val ∧ (i 1).val < win0_1.index _ (1 : Fin 2) * 1 + win0_1.xsize _ (1 : Fin 2)
    rw [e3, e7]; omega

/-- The result array after the run: the specification's row means of the input. -/
theorem final (c : Dev nD) : (dats m 0 c).arrAt 1 cfg0.N = rowMean (m ((c : Thread nD τ).loc main_arg0)) :=
  (dats m 0 c).arrAt_eq_of_cover 1 (rowMean (V m c main_arg0)) (fun t _ => flushed_eq m c t) cover

/-- Every weakly fair execution of the idealized reference terminates with the result at the row means of the
    input and the input unchanged. -/
theorem run : θ_run defs (onTc (τ := τ) (main (F := Ideal))) ⟨m, fun _ => 0, ρ⟩ fun r => ∀ c : Dev nD,
      r.2.mem ((c.tc : Thread nD τ).loc main_v0) = rowMean (m ((c.tc : Thread nD τ).loc main_arg0))
      ∧ r.2.mem ((c.tc : Thread nD τ).loc main_arg0) = m ((c.tc : Thread nD τ).loc main_arg0) :=
  (θ_run defs _ _).mono (fun r h c =>
      ⟨((h c).1 1).trans (final m c),
       ((h c).1 0).trans (((dats m 0 c).arrAt_in 0 rfl _).trans (V_main_arg0 m c))⟩)
    (run_main m ρ)

end Cert.ReferenceIdeal.RowValue

end
-- ==== Proof.lean ====
/-
  Row means of a 16384 × 392 array, two ways.

  The kernel takes the array in four blocks of 4096 rows. In each it multiplies a row of 392 ones into the block's
  transpose, which puts the 4096 row sums side by side; it lays them out 32 × 128, multiplies by the scale and
  writes them into a dense 128 × 128 array, which the host then lays out as 16384 × 1. The reference takes the
  array in thirteen blocks of 1336 rows, the last cut to the 352 rows left, sums each row along its lanes,
  multiplies by the same scale and writes a 1336 × 1 column per block.

  Over the extended reals both results are, row by row, the sum of the row times the scale (Spec.lean):
  1 · x = x turns the kernel's contraction with the ones into the row's sum, the two row-major layouts send row r
  to entry (r / 128, r % 128) and back, and the scale is the same single-precision word on both sides. Nothing
  here needs the inputs finite: a sum of extended reals does not depend on how it is tiled or ordered.

  The kernel's two frames are the generated ones; the reference's is its run (RefRun.lean) with the result
  dropped; the idealization rewrote nothing, so it is preserved trivially.
-/
import proofs.«102092_g2000405515844357_pallasbulk_212_9_alg».proof.Defs
import proofs.«102092_g2000405515844357_pallasbulk_212_9_alg».proof.Proof.Gen.Kernel
import proofs.«102092_g2000405515844357_pallasbulk_212_9_alg».proof.Proof.Gen.Kernel.Skeleton
import proofs.«102092_g2000405515844357_pallasbulk_212_9_alg».proof.Proof.Gen.Kernel.Launch
import proofs.«102092_g2000405515844357_pallasbulk_212_9_alg».proof.Proof.Gen.Kernel.Points
import proofs.«102092_g2000405515844357_pallasbulk_212_9_alg».proof.Proof.Gen.Kernel.Frame
import proofs.«102092_g2000405515844357_pallasbulk_212_9_alg».proof.Proof.Gen.KernelIdeal
import proofs.«102092_g2000405515844357_pallasbulk_212_9_alg».proof.Proof.Gen.KernelIdeal.Skeleton
import proofs.«102092_g2000405515844357_pallasbulk_212_9_alg».proof.Proof.Gen.KernelIdeal.Launch
import proofs.«102092_g2000405515844357_pallasbulk_212_9_alg».proof.Proof.Gen.KernelIdeal.Points
import proofs.«102092_g2000405515844357_pallasbulk_212_9_alg».proof.Proof.Gen.KernelIdeal.Frame
import proofs.«102092_g2000405515844357_pallasbulk_212_9_alg».proof.Proof.Gen.ReferenceIdeal
import proofs.«102092_g2000405515844357_pallasbulk_212_9_alg».proof.Proof.Gen.ReferenceIdeal.Skeleton
import proofs.«102092_g2000405515844357_pallasbulk_212_9_alg».proof.Proof.Gen.ReferenceIdeal.Launch
import proofs.«102092_g2000405515844357_pallasbulk_212_9_alg».proof.Proof.Gen.ReferenceIdeal.Points
import proofs.«102092_g2000405515844357_pallasbulk_212_9_alg».proof.Proof.Gen.ReferenceIdeal.Frame
import proofs.«102092_g2000405515844357_pallasbulk_212_9_alg».proof.Proof.Gen.Pre_finite_inputs
import proofs.«102092_g2000405515844357_pallasbulk_212_9_alg».proof.Proof.KernelArray
import proofs.«102092_g2000405515844357_pallasbulk_212_9_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RowValue.run m ρ)

/-- Both runs end at the row means of their input; the inputs agree. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.RowValue.run m' ρ')
  exact congrArg Cert.RowMean.rowMean (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
